-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x4096x256 : Shape := ⟨4, ![64, 1, 4096, 256]⟩
abbrev S64x2 : Shape := ⟨2, ![64, 2]⟩
abbrev S_ : Shape := ⟨0, ![]⟩

class Facts : Prop where
  bcast_S_S64x1x4096x256 : S_.BroadcastsInDim S64x1x4096x256 (![] : Fin 0 → Fin S64x1x4096x256.rank)
  reducesTo_S64x1x4096x256_S_d0_1_2_3 : S64x1x4096x256.ReducesTo [0, 1, 2, 3] S_
  h_S_ : 0 < S_.numel

variable [Facts]

def fn {F : FTy → Type} [FloatOps F] (main_arg0 : FVec F S64x1x4096x256 .f32) (main_arg1 : IVec S64x2 32) (main_arg2 : IVec S64x2 32) : IVec S_ 1 :=
  let main_v0 : FVec F S64x1x4096x256 .f32 := Host.absf main_arg0
  let main_cst : FVec F S_ .f32 := constant S_ .f32 0x7F800000#32
  let main_v1 : FVec F S64x1x4096x256 .f32 := broadcastInDim S64x1x4096x256 ![] bcast_S_S64x1x4096x256 main_cst
  let main_v2 : IVec S64x1x4096x256 1 := cmpf .olt main_v0 main_v1
  let main_c : IVec S_ 1 := constantI S_ 1 1#1
  let main_v3 : IVec S_ 1 := (fun x v => Host.reduce IntOp.andi x v reducesTo_S64x1x4096x256_S_d0_1_2_3 h_S_) main_v2 main_c
  main_v3
-- ==== Kernel.lean ====
abbrev S64x1x4096x256 : Shape := ⟨4, ![64, 1, 4096, 256]⟩
abbrev S64x2 : Shape := ⟨2, ![64, 2]⟩
abbrev S64x4096x256 : Shape := ⟨3, ![64, 4096, 256]⟩
abbrev S2x4096x256 : Shape := ⟨3, ![2, 4096, 256]⟩
abbrev S1x1 : Shape := ⟨2, ![1, 1]⟩
abbrev S512x1 : Shape := ⟨2, ![512, 1]⟩
abbrev S1x512x256 : Shape := ⟨3, ![1, 512, 256]⟩
abbrev S512x256 : Shape := ⟨2, ![512, 256]⟩

abbrev nBuf : Space → Nat
  | .hbm => 4
  | .vmem => 4
  | .smem => 2
  | _ => 0

abbrev bufTy : (tb : Table) → Fin (tcTables nBuf tb) → BufTy
  | .hbm, ⟨0, _⟩ => ⟨S64x1x4096x256, .f32⟩
  | .hbm, ⟨1, _⟩ => ⟨S64x4096x256, .f32⟩
  | .hbm, ⟨2, _⟩ => ⟨S64x4096x256, .f32⟩
  | .hbm, ⟨3, _⟩ => ⟨S64x1x4096x256, .f32⟩
  | .local _ .vmem, ⟨0, _⟩ => ⟨S2x4096x256, .f32⟩
  | .local _ .vmem, ⟨1, _⟩ => ⟨S2x4096x256, .f32⟩
  | .local _ .vmem, ⟨2, _⟩ => ⟨S2x4096x256, .f32⟩
  | .local _ .vmem, ⟨3, _⟩ => ⟨S2x4096x256, .f32⟩
  | .local _ .smem, ⟨0, _⟩ => ⟨S64x2, .i32⟩
  | .local _ .smem, ⟨1, _⟩ => ⟨S64x2, .i32⟩
  | _, _ => ⟨S64x1x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c0 : Index := 0#32
  ![v2.toNat, 0]
def k0_off2 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v4 : Index := Scalar.indexCast v1
  let c1 : Index := 1#32
  ![v4.toNat, 1]
@[reducible] def k0_t1_loop : Scf.Loop 32 :=
  let c0_i32_2 : BitVec 32 := 0#32
  let c8_i32 : BitVec 32 := 8#32
  let v10 : BitVec 32 := Scalar.addi c0_i32_2 c8_i32
  let c1_i32 : BitVec 32 := 1#32
  ⟨c0_i32_2, v10, c1_i32⟩
def k0_mult1 (k0_t1 : Fin k0_t1_loop.trips) : BitVec 32 :=
  let c0_i32_14 : BitVec 32 := 0#32
  let c0_i32_2 : BitVec 32 := 0#32
  let c1_i32 : BitVec 32 := 1#32
  let arg5 : BitVec 32 := Scf.iv c0_i32_2 c1_i32 k0_t1
  let c1_i32_13 : BitVec 32 := 1#32
  let v21 : BitVec 32 := Scalar.muli arg5 c1_i32_13
  let v22 : BitVec 32 := Scalar.addi c0_i32_14 v21
  let c512_i32 : BitVec 32 := 512#32
  let v23 : BitVec 32 := Scalar.muli v22 c512_i32
  v23
def k0_off3 (k0_t1 : Fin k0_t1_loop.trips) : Fin 3 → Nat :=
  let c0_15 : Index := 0#32
  let c0_i32_14 : BitVec 32 := 0#32
  let c0_i32_2 : BitVec 32 := 0#32
  let c1_i32 : BitVec 32 := 1#32
  let arg5 : BitVec 32 := Scf.iv c0_i32_2 c1_i32 k0_t1
  let c1_i32_13 : BitVec 32 := 1#32
  let v21 : BitVec 32 := Scalar.muli arg5 c1_i32_13
  let v22 : BitVec 32 := Scalar.addi c0_i32_14 v21
  let c512_i32 : BitVec 32 := 512#32
  let v23 : BitVec 32 := Scalar.muli v22 c512_i32
  let v24 : BitVec 32 := v23
  let v44 : Index := Scalar.indexCast v24
  let c0_16 : Index := 0#32
  ![0, v44.toNat, 0]
@[reducible] def k0_t2_loop : Scf.Loop 32 :=
  let c0_i32_9 : BitVec 32 := 0#32
  let c8_i32_10 : BitVec 32 := 8#32
  let v20 : BitVec 32 := Scalar.addi c0_i32_9 c8_i32_10
  let c1_i32_11 : BitVec 32 := 1#32
  ⟨c0_i32_9, v20, c1_i32_11⟩
def k0_mult2 (k0_t2 : Fin k0_t2_loop.trips) : BitVec 32 :=
  let c0_i32_14 : BitVec 32 := 0#32
  let c0_i32_9 : BitVec 32 := 0#32
  let c1_i32_11 : BitVec 32 := 1#32
  let arg5 : BitVec 32 := Scf.iv c0_i32_9 c1_i32_11 k0_t2
  let c1_i32_13 : BitVec 32 := 1#32
  let v21 : BitVec 32 := Scalar.muli arg5 c1_i32_13
  let v22 : BitVec 32 := Scalar.addi c0_i32_14 v21
  let c512_i32 : BitVec 32 := 512#32
  let v23 : BitVec 32 := Scalar.muli v22 c512_i32
  v23
def k0_off4 (k0_t2 : Fin k0_t2_loop.trips) : Fin 3 → Nat :=
  let c1_15 : Index := 1#32
  let c0_i32_14 : BitVec 32 := 0#32
  let c0_i32_9 : BitVec 32 := 0#32
  let c1_i32_11 : BitVec 32 := 1#32
  let arg5 : BitVec 32 := Scf.iv c0_i32_9 c1_i32_11 k0_t2
  let c1_i32_13 : BitVec 32 := 1#32
  let v21 : BitVec 32 := Scalar.muli arg5 c1_i32_13
  let v22 : BitVec 32 := Scalar.addi c0_i32_14 v21
  let c512_i32 : BitVec 32 := 512#32
  let v23 : BitVec 32 := Scalar.muli v22 c512_i32
  let v24 : BitVec 32 := v23
  let v44 : Index := Scalar.indexCast v24
  let c0_16 : Index := 0#32
  ![1, v44.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x1x4096x256_S64x4096x256 : S64x1x4096x256.ShapeCasts S64x4096x256
  numel1_S1x1 : S1x1.numel = 1
  iota_S512x1_d0_w32 : S512x1.Iotas .tc 32 [0]
  natLt_1_32 : 1 < 32
  h_S1x512x256 : 0 < S1x512x256.numel
  shapeCasts_S1x512x256_S512x256 : S1x512x256.ShapeCasts S512x256
  broadcasts_S512x1_S512x256 : S512x1.Broadcasts S512x256
  shapeCasts_S512x256_S1x512x256 : S512x256.ShapeCasts S1x512x256
  shapeCasts_S64x4096x256_S64x1x4096x256 : S64x4096x256.ShapeCasts S64x1x4096x256
  hrank0 : 0 < grid0.rank
  k0_off1_inb : ∀ i : grid0.Coords, ∀ (r : Fin 2), ∀ a, (k0_off1 i (BitVec.ofNat 32 r.val)) a + S1x1.size a ≤ S64x2.size a
  k0_off2_inb : ∀ i : grid0.Coords, ∀ (r : Fin 2), ∀ a, (k0_off2 i (BitVec.ofNat 32 r.val)) a + S1x1.size a ≤ S64x2.size a
  k0_t1_ok : k0_t1_loop.OK
  k0_mult1_dvd : ∀ k0_t1 : Fin k0_t1_loop.trips, 512 ∣ (k0_mult1 k0_t1).toNat
  k0_off3_inb : ∀ k0_t1 : Fin k0_t1_loop.trips, ∀ a, (k0_off3 k0_t1) a + S1x512x256.size a ≤ S2x4096x256.size a
  k0_t2_ok : k0_t2_loop.OK
  k0_mult2_dvd : ∀ k0_t2 : Fin k0_t2_loop.trips, 512 ∣ (k0_mult2 k0_t2).toNat
  k0_off4_inb : ∀ k0_t2 : Fin k0_t2_loop.trips, ∀ a, (k0_off4 k0_t2) a + S1x512x256.size a ≤ S2x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x256.size a ≤ S64x4096x256.size a
  hwx0_0 : ∀ i : grid0.Coords, EltTy.bits .f32 = 32 ∨ (Rect.block (s := S64x4096x256) S2x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x4096x256.size a ≤ S64x4096x256.size a
  hwx0_1 : ∀ i : grid0.Coords, EltTy.bits .f32 = 32 ∨ (Rect.block (s := S64x4096x256) S2x4096x256.size (cc0_transform_1 i) (hinb0_1 i)).WholeWords (EltTy.packing .f32)

variable [Facts₀]

abbrev spec0_0 : Pipeline.WinSpec sig grid0.rank :=
  Pipeline.WinSpec.ofSpec (Memref.whole main_v0) S2x4096x256.size reads0_0 false false 2 stage0_0 sem0_0 nbuf0_0 hstage0_0

abbrev spec0_1 : Pipeline.WinSpec sig grid0.rank :=
  Pipeline.WinSpec.ofSpec (Memref.whole main_v1) S2x4096x256.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S64x1x4096x256 : Shape := ⟨4, ![64, 1, 4096, 256]⟩
abbrev S64x2 : Shape := ⟨2, ![64, 2]⟩
abbrev S4096 : Shape := ⟨1, ![4096]⟩
abbrev S1x1x4096 : Shape := ⟨3, ![1, 1, 4096]⟩
abbrev S64x2x1 : Shape := ⟨3, ![64, 2, 1]⟩
abbrev S64x2x4096 : Shape := ⟨3, ![64, 2, 4096]⟩
abbrev S_ : Shape := ⟨0, ![]⟩
abbrev S64x4096 : Shape := ⟨2, ![64, 4096]⟩
abbrev S64x1x4096x1 : Shape := ⟨4, ![64, 1, 4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S64x1x4096x256, .f32⟩
  | .hbm, ⟨1, _⟩ => ⟨S64x2, .i32⟩
  | .hbm, ⟨2, _⟩ => ⟨S64x2, .i32⟩
  | .hbm, ⟨3, _⟩ => ⟨S4096, .i32⟩
  | .hbm, ⟨4, _⟩ => ⟨S1x1x4096, .i32⟩
  | .hbm, ⟨5, _⟩ => ⟨S64x2x1, .i32⟩
  | .hbm, ⟨6, _⟩ => ⟨S64x2x4096, .i32⟩
  | .hbm, ⟨7, _⟩ => ⟨S64x2x4096, .i32⟩
  | .hbm, ⟨8, _⟩ => ⟨S64x2x4096, .i1⟩
  | .hbm, ⟨9, _⟩ => ⟨S1x1x4096, .i32⟩
  | .hbm, ⟨10, _⟩ => ⟨S64x2, .i32⟩
  | .hbm, ⟨11, _⟩ => ⟨S64x2x1, .i32⟩
  | .hbm, ⟨12, _⟩ => ⟨S64x2x4096, .i32⟩
  | .hbm, ⟨13, _⟩ => ⟨S64x2x4096, .i32⟩
  | .hbm, ⟨14, _⟩ => ⟨S64x2x4096, .i1⟩
  | .hbm, ⟨15, _⟩ => ⟨S64x2x4096, .i1⟩
  | .hbm, ⟨16, _⟩ => ⟨S_, .i1⟩
  | .hbm, ⟨17, _⟩ => ⟨S64x4096, .i1⟩
  | .hbm, ⟨18, _⟩ => ⟨S64x4096, .i1⟩
  | .hbm, ⟨19, _⟩ => ⟨S64x1x4096x1, .i1⟩
  | .hbm, ⟨20, _⟩ => ⟨S64x1x4096x1, .f32⟩
  | .hbm, ⟨21, _⟩ => ⟨S64x1x4096x256, .f32⟩
  | .hbm, ⟨22, _⟩ => ⟨S64x1x4096x256, .f32⟩
  | _, _ => ⟨S64x1x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S64x2_S64x2x1_0_1 : S64x2.BroadcastsInDim S64x2x1 (![0, 1] : Fin 2 → Fin S64x2x1.rank)
  bcast_S1x1x4096_S64x2x4096_0_1_2 : S1x1x4096.BroadcastsInDim S64x2x4096 (![0, 1, 2] : Fin 3 → Fin S64x2x4096.rank)
  bcast_S64x2x1_S64x2x4096_0_1_2 : S64x2x1.BroadcastsInDim S64x2x4096 (![0, 1, 2] : Fin 3 → Fin S64x2x4096.rank)
  reducesTo_S64x2x4096_S64x4096_d1 : S64x2x4096.ReducesTo [1] S64x4096
  h_S_ : 0 < S_.numel
  bcast_S64x4096_S64x1x4096x1_0_2 : S64x4096.BroadcastsInDim S64x1x4096x1 (![0, 2] : Fin 2 → Fin S64x1x4096x1.rank)
  bcast_S64x1x4096x1_S64x1x4096x256_0_1_2_3 : S64x1x4096x1.BroadcastsInDim S64x1x4096x256 (![0, 1, 2, 3] : Fin 4 → Fin S64x1x4096x256.rank)

variable [Facts₀]

class Facts : Prop extends Facts₀ where

variable [Facts]
-- ==== Proof.Pieces.lean ====
/-
  What the kernel body leaves in its output block, store by store.

  The body handles the two samples of a grid step in turn; for each it walks the 4096 time steps in 8 chunks of
  512 rows, and stores, for chunk `k`, the rows `512 k … 512 k + 511` of the sample: the loaded rows times the
  keep factor of each row's time step. So the output block is written by 16 stores whose rectangles tile it.
  This module reads those stores off the body's run: every stored piece is a rectangle of one of the two samples
  at a chunk's rows, holding the chunk's payload of the input rows loaded through the same rectangle.
-/
import proofs.«410493_j44710609551576_3_alg».proof.Proof.Gen.KernelIdeal.Frame
import Idealize.ShloMosaic.Lib.Pipeline.Value

set_option maxRecDepth 16384

noncomputable section

namespace Cert.KernelIdeal.Stripes

open Idealize.ShloMosaic Idealize.ShloMosaic.TcCoe Idealize.ShloMosaic.Tactic
open Idealize.SL Idealize.SL.Sem
open Cert.KernelIdeal Cert.KernelIdeal.Gen

variable {F : FTy → Type} [FloatOps F]

/-- Rows `512 k … 512 k + 511` of the block's first sample. -/
abbrev chunk0 (k : Fin k0_t1_loop.trips) : Rect S2x4096x256 :=
  Rect.unit (s := S2x4096x256) (k0_off3 k) S1x512x256.size (k0_off3_inb k)

/-- Rows `512 k … 512 k + 511` of the block's second sample. -/
abbrev chunk1 (k : Fin k0_t2_loop.trips) : Rect S2x4096x256 :=
  Rect.unit (s := S2x4096x256) (k0_off4 k) S1x512x256.size (k0_off4_inb k)

/-- Trip `k` of the first sample's chunk loop makes one store: through the chunk's rectangle, the payload of the
    input rows loaded through that rectangle. -/
theorem trip0_piece (𝒱 : Variants) (c : Dev nD) (bd : Option 𝒱.V) (i : grid0.Coords)
    (arg1 : Memref sig .tc .smem S64x2 .i32) (harg1 : arg1.IsWhole) (arg2 : Memref sig .tc .smem S64x2 .i32) (harg2 : arg2.IsWhole)
    (arg3 : Memref sig .tc .vmem S2x4096x256 .f32) (harg3 : arg3.IsWhole) (arg4 : Memref sig .tc .vmem S2x4096x256 .f32) (harg4 : arg4.IsWhole)
    (v3 v5 v7 v9 : Elt F .i32) (X : BufTy.Contents (Elt F) arg3.view.ty) (k : Fin k0_t1_loop.trips) :
    tripL_k0_t1 (F := F) 𝒱 c bd i arg1 harg1 arg2 harg2 arg3 harg3 arg4 harg4 v3 v5 v7 v9 X k
      = [⟨chunk0 k, k0_pay1 v3 v5 v7 v9 k (View.readAt (Elt F) arg3.view (chunk0 k).toLoadRect X)⟩] := by
  unfold tripL_k0_t1 trip_k0_t1
  rfl

/-- Trip `k` of the second sample's chunk loop likewise. -/
theorem trip1_piece (𝒱 : Variants) (c : Dev nD) (bd : Option 𝒱.V) (i : grid0.Coords)
    (arg1 : Memref sig .tc .smem S64x2 .i32) (harg1 : arg1.IsWhole) (arg2 : Memref sig .tc .smem S64x2 .i32) (harg2 : arg2.IsWhole)
    (arg3 : Memref sig .tc .vmem S2x4096x256 .f32) (harg3 : arg3.IsWhole) (arg4 : Memref sig .tc .vmem S2x4096x256 .f32) (harg4 : arg4.IsWhole)
    (v13 v15 v17 v19 : Elt F .i32) (X : BufTy.Contents (Elt F) arg3.view.ty) (k : Fin k0_t2_loop.trips) :
    tripL_k0_t2 (F := F) 𝒱 c bd i arg1 harg1 arg2 harg2 arg3 harg3 arg4 harg4 v13 v15 v17 v19 X k
      = [⟨chunk1 k, k0_pay2 v13 v15 v17 v19 k (View.readAt (Elt F) arg3.view (chunk1 k).toLoadRect X)⟩] := by
  unfold tripL_k0_t2 trip_k0_t2
  rfl

/-- A property of every chunk's store holds of every store the first loop has made after `n` trips. -/
theorem forall_mem_pb0 (P : View.Piece (Elt F) S2x4096x256 .f32 → Prop) (𝒱 : Variants) (c : Dev nD) (bd : Option 𝒱.V) (i : grid0.Coords)
    (arg1 : Memref sig .tc .smem S64x2 .i32) (harg1 : arg1.IsWhole) (arg2 : Memref sig .tc .smem S64x2 .i32) (harg2 : arg2.IsWhole)
    (arg3 : Memref sig .tc .vmem S2x4096x256 .f32) (harg3 : arg3.IsWhole) (arg4 : Memref sig .tc .vmem S2x4096x256 .f32) (harg4 : arg4.IsWhole)
    (v3 v5 v7 v9 : Elt F .i32) (X : BufTy.Contents (Elt F) arg3.view.ty)
    (h : ∀ k : Fin k0_t1_loop.trips, P ⟨chunk0 k, k0_pay1 v3 v5 v7 v9 k (View.readAt (Elt F) arg3.view (chunk0 k).toLoadRect X)⟩) :
    ∀ (n : ℕ), ∀ p ∈ pb_k0_t1 (F := F) 𝒱 c bd i arg1 harg1 arg2 harg2 arg3 harg3 arg4 harg4 v3 v5 v7 v9 X n, P p
  | 0, p, hp => by rw [pb_k0_t1.eq_1] at hp; exact absurd hp List.not_mem_nil
  | n + 1, p, hp => by
    rw [pb_k0_t1.eq_2] at hp
    unfold pb_k0_t1Step at hp
    by_cases hn : n < k0_t1_loop.trips
    · rw [dif_pos hn, trip0_piece, List.mem_append, List.mem_singleton] at hp
      rcases hp with rfl | hp
      · exact h ⟨n, hn⟩
      · exact forall_mem_pb0 P 𝒱 c bd i arg1 harg1 arg2 harg2 arg3 harg3 arg4 harg4 v3 v5 v7 v9 X h n p hp
    · rw [dif_neg hn] at hp
      exact forall_mem_pb0 P 𝒱 c bd i arg1 harg1 arg2 harg2 arg3 harg3 arg4 harg4 v3 v5 v7 v9 X h n p hp

/-- The same for the second loop. -/
theorem forall_mem_pb1 (P : View.Piece (Elt F) S2x4096x256 .f32 → Prop) (𝒱 : Variants) (c : Dev nD) (bd : Option 𝒱.V) (i : grid0.Coords)
    (arg1 : Memref sig .tc .smem S64x2 .i32) (harg1 : arg1.IsWhole) (arg2 : Memref sig .tc .smem S64x2 .i32) (harg2 : arg2.IsWhole)
    (arg3 : Memref sig .tc .vmem S2x4096x256 .f32) (harg3 : arg3.IsWhole) (arg4 : Memref sig .tc .vmem S2x4096x256 .f32) (harg4 : arg4.IsWhole)
    (v13 v15 v17 v19 : Elt F .i32) (X : BufTy.Contents (Elt F) arg3.view.ty)
    (h : ∀ k : Fin k0_t2_loop.trips, P ⟨chunk1 k, k0_pay2 v13 v15 v17 v19 k (View.readAt (Elt F) arg3.view (chunk1 k).toLoadRect X)⟩) :
    ∀ (n : ℕ), ∀ p ∈ pb_k0_t2 (F := F) 𝒱 c bd i arg1 harg1 arg2 harg2 arg3 harg3 arg4 harg4 v13 v15 v17 v19 X n, P p
  | 0, p, hp => by rw [pb_k0_t2.eq_1] at hp; exact absurd hp List.not_mem_nil
  | n + 1, p, hp => by
    rw [pb_k0_t2.eq_2] at hp
    unfold pb_k0_t2Step at hp
    by_cases hn : n < k0_t2_loop.trips
    · rw [dif_pos hn, trip1_piece, List.mem_append, List.mem_singleton] at hp
      rcases hp with rfl | hp
      · exact h ⟨n, hn⟩
      · exact forall_mem_pb1 P 𝒱 c bd i arg1 harg1 arg2 harg2 arg3 harg3 arg4 harg4 v13 v15 v17 v19 X h n p hp
    · rw [dif_neg hn] at hp
      exact forall_mem_pb1 P 𝒱 c bd i arg1 harg1 arg2 harg2 arg3 harg3 arg4 harg4 v13 v15 v17 v19 X h n p hp

/-- The table words the body reads at grid point `i`: start and width of the two stripes of the block's first
    sample (`w0…`) and of its second (`w1…`), each the table read at the body's own offsets. -/
abbrev bgn00 (c : Dev nD) (i : grid0.Coords) (xt0 : TbBuf0 (F := F) c tbM0_0) : Elt F .i32 := kernelRun0_A.sl.r c i xt0
abbrev bgn01 (c : Dev nD) (i : grid0.Coords) (xt0 : TbBuf0 (F := F) c tbM0_0) : Elt F .i32 := kernelRun0_A.sl.r_1 c i xt0
abbrev dst00 (c : Dev nD) (i : grid0.Coords) (xt1 : TbBuf0 (F := F) c tbM0_1) : Elt F .i32 := kernelRun0_A.sl.r_2 c i xt1
abbrev dst01 (c : Dev nD) (i : grid0.Coords) (xt1 : TbBuf0 (F := F) c tbM0_1) : Elt F .i32 := kernelRun0_A.sl.r_3 c i xt1
abbrev bgn10 (c : Dev nD) (i : grid0.Coords) (xt0 : TbBuf0 (F := F) c tbM0_0) : Elt F .i32 := kernelRun0_A.sl.r_4 c i xt0
abbrev bgn11 (c : Dev nD) (i : grid0.Coords) (xt0 : TbBuf0 (F := F) c tbM0_0) : Elt F .i32 := kernelRun0_A.sl.r_5 c i xt0
abbrev dst10 (c : Dev nD) (i : grid0.Coords) (xt1 : TbBuf0 (F := F) c tbM0_1) : Elt F .i32 := kernelRun0_A.sl.r_6 c i xt1
abbrev dst11 (c : Dev nD) (i : grid0.Coords) (xt1 : TbBuf0 (F := F) c tbM0_1) : Elt F .i32 := kernelRun0_A.sl.r_7 c i xt1

/-- A property of every chunk's store, of both samples, holds of every store of the body's run. -/
theorem forall_mem_run (P : View.Piece (Elt F) S2x4096x256 .f32 → Prop) (c : Dev nD) (i : grid0.Coords)
    (arg3 : Memref sig .tc .vmem S2x4096x256 .f32) (harg3 : arg3.IsWhole) (arg4 : Memref sig .tc .vmem S2x4096x256 .f32) (harg4 : arg4.IsWhole)
    (x0 : Vec F S2x4096x256 .f32) (xt0 : TbBuf0 (F := F) c tbM0_0) (xt1 : TbBuf0 (F := F) c tbM0_1)
    (h0 : ∀ k : Fin k0_t1_loop.trips, P ⟨chunk0 k, k0_pay1 (bgn00 c i xt0) (bgn01 c i xt0) (dst00 c i xt1) (dst01 c i xt1) k
      (View.readAt (Elt F) arg3.view (chunk0 k).toLoadRect (harg3.unread x0))⟩)
    (h1 : ∀ k : Fin k0_t2_loop.trips, P ⟨chunk1 k, k0_pay2 (bgn10 c i xt0) (bgn11 c i xt0) (dst10 c i xt1) (dst11 c i xt1) k
      (View.readAt (Elt F) arg3.view (chunk1 k).toLoadRect (harg3.unread x0))⟩) :
    ∀ p ∈ (kernelRun0_A c i arg3 harg3 arg4 harg4 x0 xt0 xt1).1, P p := by
  intro p hp
  unfold kernelRun0_A at hp
  dsimp only at hp
  rw [List.mem_append] at hp
  rcases hp with hp | hp
  · exact forall_mem_pb1 P _ c _ i _ _ _ _ arg3 harg3 arg4 harg4 _ _ _ _ _ h1 _ p hp
  · exact forall_mem_pb0 P _ c _ i _ _ _ _ arg3 harg3 arg4 harg4 _ _ _ _ _ h0 _ p hp

end Cert.KernelIdeal.Stripes

end
-- ==== Proof.Spec.lean ====
/-
  Time-stripe masking, as one function of the argument arrays.

  For sample `b` and time step `t` the mask bit is cleared exactly when `t` lies in one of the sample's two
  stripes `[bgn b s, bgn b s + distance b s)`, `s = 0, 1` — the comparisons signed, the sum wrapping at 32 bits —
  and the result at `(b, 0, t, f)` is `x (b, 0, t, f)` times that bit read as the number 0 or 1.
  Nothing here mentions a program: both programs are shown to compute `masked`.
-/
import Idealize.ShloMosaic.PureOps.Ideal
import Idealize.ShloMosaic.Lib.ValueIdx

noncomputable section

namespace Cert.Stripes

open Idealize.ShloMosaic Idealize.ShloMosaic.ValueIdx

abbrev SX : Shape := ⟨4, ![64, 1, 4096, 256]⟩
abbrev ST : Shape := ⟨2, ![64, 2]⟩

/-- `t` lies in the stripe that starts at `b` and has width `d`: `b ≤ t` and `t < b + d`, signed, the sum wrapping. -/
def inStripe (t b d : BitVec 32) : BitVec 1 :=
  IntOp.andi (IntOp.cmpi .sge t b) (IntOp.cmpi .slt t (IntOp.addi b d))

/-- The keep bit of time step `t` against two stripes: set exactly when `t` lies in neither. -/
def keepBit (t b0 d0 b1 d1 : BitVec 32) : BitVec 1 :=
  IntOp.xori (IntOp.ori (inStripe t b0 d0) (inStripe t b1 d1)) 1#1

/-- The keep bit as a number: 0 or 1 (the bit widened to a word and read as a signed integer). -/
def keepVal (t b0 d0 b1 d1 : BitVec 32) : EReal :=
  FloatOps.sitofp (F := Ideal) .f32 ((keepBit t b0 d0 b1 d1).setWidth 32)

/-- The keep factor of sample `b` at time step `t`, from the two tables. -/
def keepAt (bgn dist : ST.Idx → BitVec 32) (b : Fin 64) (t : Fin 4096) : EReal :=
  keepVal (BitVec.ofNat 32 t.val) (bgn (ix2 b 0)) (dist (ix2 b 0)) (bgn (ix2 b 1)) (dist (ix2 b 1))

/-- The masked array: every entry of `x` times its sample's keep factor at its time step. -/
def masked (x : SX.Idx → EReal) (bgn dist : ST.Idx → BitVec 32) : SX.Idx → EReal :=
  fun i => x i * keepAt bgn dist (i 0) (i 2)

end Cert.Stripes

end
-- ==== Proof.Payload.lean ====
/-
  One chunk's payload, entry by entry, at the ideal instance.

  For chunk `k` of a sample whose stripes start at `b0`, `b1` with widths `d0`, `d1`, the stored value at row `r`,
  column `f` is the loaded entry times the keep factor of time step `512 k + r`: the body's row index is the
  chunk's first row plus the row's position, its mask the complement of "in either stripe", widened and converted.
-/
import proofs.«410493_j44710609551576_3_alg».proof.Proof.Gen.KernelIdeal.Skeleton
import proofs.«410493_j44710609551576_3_alg».proof.Proof.Spec
import Idealize.ShloMosaic.Lib.Pipeline.Value
import Idealize.ShloMosaic.Lib.ValueIdx

noncomputable section

namespace Cert.KernelIdeal.Stripes

open Idealize.ShloMosaic Idealize.ShloMosaic.ValueIdx
open Cert.KernelIdeal Cert.KernelIdeal.Gen Cert.Stripes

/-- The first row of chunk `k`, as the body computes it, is the word `512 k` (first loop). -/
theorem chunk_word0 : ∀ k : Fin k0_t1_loop.trips,
    Scalar.muli (Scalar.addi 0#32 (Scalar.muli (Scf.iv 0#32 1#32 k) 1#32)) 512#32 = BitVec.ofNat 32 (512 * k.val) := by
  decide +kernel

/-- The same in the second loop. -/
theorem chunk_word1 : ∀ k : Fin k0_t2_loop.trips,
    Scalar.muli (Scalar.addi 0#32 (Scalar.muli (Scf.iv 0#32 1#32 k) 1#32)) 512#32 = BitVec.ofNat 32 (512 * k.val) := by
  decide +kernel

/-- Dropping the leading unit coordinate of a `[1, 512, 256]` index. -/
theorem tail_ix3 (z : Fin 1) (r : Fin 512) (f : Fin 256) :
    (fun a : Fin 2 => (ix3 z r f : S1x512x256.Idx) a.succ) = (ix2 r f : S512x256.Idx) :=
  funext fun a => by match a with | ⟨0, _⟩ => rfl | ⟨1, _⟩ => rfl

/-- The mask column of a chunk whose first row is the word `512 k`, at row `r`: the keep factor of time step `512 k + r`. -/
theorem keep_column (b0 b1 d0 d1 : BitVec 32) (kk : ℕ) (r : Fin 512) :
    (sitofp (F := Ideal) .f32 (extui 32 (xori (ori
        (andi (cmpi .sge (addi (broadcast S512x1 (BitVec.ofNat 32 (512 * kk))) (iota .tc S512x1 32 [0] iota_S512x1_d0_w32)) (broadcast S512x1 b0))
              (cmpi .slt (addi (broadcast S512x1 (BitVec.ofNat 32 (512 * kk))) (iota .tc S512x1 32 [0] iota_S512x1_d0_w32)) (broadcast S512x1 (Scalar.addi b0 d0))))
        (andi (cmpi .sge (addi (broadcast S512x1 (BitVec.ofNat 32 (512 * kk))) (iota .tc S512x1 32 [0] iota_S512x1_d0_w32)) (broadcast S512x1 b1))
              (cmpi .slt (addi (broadcast S512x1 (BitVec.ofNat 32 (512 * kk))) (iota .tc S512x1 32 [0] iota_S512x1_d0_w32)) (broadcast S512x1 (Scalar.addi b1 d1)))))
        (constantI S512x1 1 1#1)) natLt_1_32) : FVec Ideal S512x1 .f32) (ix2 r (0 : Fin 1))
      = keepVal (BitVec.ofNat 32 (512 * kk + r.val)) b0 d0 b1 d1 := by
  have hT : addi (broadcast S512x1 (BitVec.ofNat 32 (512 * kk))) (iota .tc S512x1 32 [0] iota_S512x1_d0_w32) (ix2 r (0 : Fin 1))
      = BitVec.ofNat 32 (512 * kk + r.val) := by
    show IntOp.addi (BitVec.ofNat 32 (512 * kk)) (iota .tc S512x1 32 [0] iota_S512x1_d0_w32 (ix2 r (0 : Fin 1))) = _
    rw [iota_single_apply]
    exact (BitVec.ofNat_add _ _).symm
  show FloatOps.sitofp (F := Ideal) .f32 ((IntOp.xori (IntOp.ori
      (IntOp.andi (IntOp.cmpi .sge (addi (broadcast S512x1 (BitVec.ofNat 32 (512 * kk))) (iota .tc S512x1 32 [0] iota_S512x1_d0_w32) (ix2 r (0 : Fin 1))) b0)
        (IntOp.cmpi .slt (addi (broadcast S512x1 (BitVec.ofNat 32 (512 * kk))) (iota .tc S512x1 32 [0] iota_S512x1_d0_w32) (ix2 r (0 : Fin 1))) (Scalar.addi b0 d0)))
      (IntOp.andi (IntOp.cmpi .sge (addi (broadcast S512x1 (BitVec.ofNat 32 (512 * kk))) (iota .tc S512x1 32 [0] iota_S512x1_d0_w32) (ix2 r (0 : Fin 1))) b1)
        (IntOp.cmpi .slt (addi (broadcast S512x1 (BitVec.ofNat 32 (512 * kk))) (iota .tc S512x1 32 [0] iota_S512x1_d0_w32) (ix2 r (0 : Fin 1))) (Scalar.addi b1 d1))))
      1#1).setWidth 32) = _
  rw [hT]
  rfl

/-- Chunk `k`'s payload in the first loop, at row `r` and column `f`. -/
theorem pay1_apply (b0 b1 d0 d1 : BitVec 32) (k : Fin k0_t1_loop.trips) (v45 : S1x512x256.Idx → EReal) (z : Fin 1) (r : Fin 512) (f : Fin 256) :
    k0_pay1 (F := Ideal) b0 b1 d0 d1 k v45 (ix3 z r f) = v45 (ix3 z r f) * keepVal (BitVec.ofNat 32 (512 * k.val + r.val)) b0 d0 b1 d1 := by
  unfold k0_pay1
  dsimp only
  rw [chunk_word0 k]
  refine (shapeCast_addUnit_apply ![512, 256] _ _ (ix3 z r f)).trans ?_
  rw [tail_ix3]
  show (shapeCast S512x256 v45 shapeCasts_S1x512x256_S512x256 (ix2 r f)) * (broadcastTo S512x256 _ broadcasts_S512x1_S512x256 (ix2 r f)) = _
  congr 1
  · refine (shapeCast_dropUnit_apply ![512, 256] v45 _ (ix2 r f)).trans (congrArg v45 (funext fun a => Fin.ext ?_))
    match a with
    | ⟨0, _⟩ => show (0 : ℕ) = z.val; have := z.isLt; omega
    | ⟨1, _⟩ => rfl
    | ⟨2, _⟩ => rfl
  · refine (broadcastTo_apply _ broadcasts_S512x1_S512x256 (ix2 r f) (ix2 r (0 : Fin 1)) (fun a => by
      match a with
      | ⟨0, _⟩ => rfl
      | ⟨1, _⟩ => rfl)).trans ?_
    exact keep_column b0 b1 d0 d1 k.val r

/-- Chunk `k`'s payload in the second loop, at row `r` and column `f`. -/
theorem pay2_apply (b0 b1 d0 d1 : BitVec 32) (k : Fin k0_t2_loop.trips) (v45 : S1x512x256.Idx → EReal) (z : Fin 1) (r : Fin 512) (f : Fin 256) :
    k0_pay2 (F := Ideal) b0 b1 d0 d1 k v45 (ix3 z r f) = v45 (ix3 z r f) * keepVal (BitVec.ofNat 32 (512 * k.val + r.val)) b0 d0 b1 d1 := by
  unfold k0_pay2
  dsimp only
  rw [chunk_word1 k]
  refine (shapeCast_addUnit_apply ![512, 256] _ _ (ix3 z r f)).trans ?_
  rw [tail_ix3]
  show (shapeCast S512x256 v45 shapeCasts_S1x512x256_S512x256 (ix2 r f)) * (broadcastTo S512x256 _ broadcasts_S512x1_S512x256 (ix2 r f)) = _
  congr 1
  · refine (shapeCast_dropUnit_apply ![512, 256] v45 _ (ix2 r f)).trans (congrArg v45 (funext fun a => Fin.ext ?_))
    match a with
    | ⟨0, _⟩ => show (0 : ℕ) = z.val; have := z.isLt; omega
    | ⟨1, _⟩ => rfl
    | ⟨2, _⟩ => rfl
  · refine (broadcastTo_apply _ broadcasts_S512x1_S512x256 (ix2 r f) (ix2 r (0 : Fin 1)) (fun a => by
      match a with
      | ⟨0, _⟩ => rfl
      | ⟨1, _⟩ => rfl)).trans ?_
    exact keep_column b0 b1 d0 d1 k.val r

end Cert.KernelIdeal.Stripes

end
-- ==== Proof.Block.lean ====
/-
  The output block of one grid step, as one function of its input block and the step's eight table words.

  The 16 stores of the body tile the block (the generated cover), and each store's payload is, entry by entry, the
  input entry under it times the keep factor of the entry's time step, with the stripe words of the entry's own
  sample: the first sample's chunks carry the first sample's words, the second's the second's. So the block the
  body leaves is that product at every entry, whatever order the stores were made in.
-/
import proofs.«410493_j44710609551576_3_alg».proof.Proof.Pieces
import proofs.«410493_j44710609551576_3_alg».proof.Proof.Payload

set_option maxRecDepth 16384

noncomputable section

namespace Cert.KernelIdeal.Stripes

open Idealize.ShloMosaic Idealize.ShloMosaic.TcCoe Idealize.ShloMosaic.ValueIdx
open Idealize.SL Idealize.SL.Sem
open Cert.KernelIdeal Cert.KernelIdeal.Gen Cert.Stripes

/-- Every entry of the input block times the keep factor of its time step (its coordinate 1), with the stripe
    words of its sample (its coordinate 0): `b0·`, `d0·` for the block's first sample, `b1·`, `d1·` for its second. -/
def blockFn (x0 : S2x4096x256.Idx → EReal) (b00 d00 b01 d01 b10 d10 b11 d11 : BitVec 32) : S2x4096x256.Idx → EReal :=
  fun y => x0 y * (if (y 0).val = 0 then keepVal (BitVec.ofNat 32 (y 1).val) b00 d00 b01 d01
                   else keepVal (BitVec.ofNat 32 (y 1).val) b10 d10 b11 d11)

theorem blockFn_apply (x0 : S2x4096x256.Idx → EReal) (b00 d00 b01 d01 b10 d10 b11 d11 : BitVec 32) (y : S2x4096x256.Idx) :
    blockFn x0 b00 d00 b01 d01 b10 d10 b11 d11 y = x0 y * (if (y 0).val = 0 then keepVal (BitVec.ofNat 32 (y 1).val) b00 d00 b01 d01
                   else keepVal (BitVec.ofNat 32 (y 1).val) b10 d10 b11 d11) := rfl

/-- What the body leaves in the output block at grid point `i`. -/
theorem out_block (c : Dev nD) (i : grid0.Coords) (arg3 : Memref sig .tc .vmem S2x4096x256 .f32) (harg3 : arg3.IsWhole)
    (arg4 : Memref sig .tc .vmem S2x4096x256 .f32) (harg4 : arg4.IsWhole)
    (x0 : Vec Ideal S2x4096x256 .f32) (xt0 : TbBuf0 (F := Ideal) c tbM0_0) (xt1 : TbBuf0 (F := Ideal) c tbM0_1) :
    out0_A_1 (F := Ideal) c i arg3 harg3 arg4 harg4 x0 xt0 xt1
      = blockFn x0 (bgn00 c i xt0) (dst00 c i xt1) (bgn01 c i xt0) (dst01 c i xt1)
          (bgn10 c i xt0) (dst10 c i xt1) (bgn11 c i xt0) (dst11 c i xt1) := by
  unfold out0_A_1
  rw [View.read_writes_eq_canon _ _ _ (cover0_A_1 c i arg3 harg3 arg4 harg4 x0 xt0 xt1)]
  funext y
  refine View.canon_apply_of_pieces _ _
    (forall_mem_run (fun p => ∀ x : p.1.shape.Idx, p.2 x = blockFn x0 (bgn00 c i xt0) (dst00 c i xt1) (bgn01 c i xt0) (dst01 c i xt1)
          (bgn10 c i xt0) (dst10 c i xt1) (bgn11 c i xt0) (dst11 c i xt1) (p.1.emb x)) c i arg3 harg3 arg4 harg4 x0 xt0 xt1 ?h0 ?h1)
    y (cover0_A_1 c i arg3 harg3 arg4 harg4 x0 xt0 xt1 y)
  case h0 =>
    intro k x
    obtain ⟨z, r, f, rfl⟩ : ∃ (z : Fin 1) (r : Fin 512) (f : Fin 256), x = ix3 z r f := ⟨x 0, x 1, x 2, eq_ix3 x⟩
    have e0 : (((chunk0 k).emb (ix3 z r f)) 0).val = 0 := by
      rw [Rect.emb_apply]
      show (k0_off3 k) 0 + 1 * z.val = 0
      rw [k0_off3_eq k]
      show 0 + 1 * z.val = 0
      have := z.isLt; omega
    have e1 : (((chunk0 k).emb (ix3 z r f)) 1).val = 512 * k.val + r.val := by
      rw [Rect.emb_apply]
      show (k0_off3 k) 1 + 1 * r.val = _
      rw [k0_off3_eq k]
      show 512 * k.val + 1 * r.val = _
      omega
    rw [blockFn_apply, if_pos e0, e1]
    show k0_pay1 (F := Ideal) _ _ _ _ k _ (ix3 z r f) = _
    rw [pay1_apply, View.readAt_eq_ld, harg3.read_unread]
    rfl
  case h1 =>
    intro k x
    obtain ⟨z, r, f, rfl⟩ : ∃ (z : Fin 1) (r : Fin 512) (f : Fin 256), x = ix3 z r f := ⟨x 0, x 1, x 2, eq_ix3 x⟩
    have e0 : ¬ (((chunk1 k).emb (ix3 z r f)) 0).val = 0 := by
      rw [Rect.emb_apply]
      show ¬ (k0_off4 k) 0 + 1 * z.val = 0
      rw [k0_off4_eq k]
      show ¬ 1 + 1 * z.val = 0
      omega
    have e1 : (((chunk1 k).emb (ix3 z r f)) 1).val = 512 * k.val + r.val := by
      rw [Rect.emb_apply]
      show (k0_off4 k) 1 + 1 * r.val = _
      rw [k0_off4_eq k]
      show 512 * k.val + 1 * r.val = _
      omega
    rw [blockFn_apply, if_neg e0, e1]
    show k0_pay2 (F := Ideal) _ _ _ _ k _ (ix3 z r f) = _
    rw [pay2_apply, View.readAt_eq_ld, harg3.read_unread]
    rfl

/-- A one-word read of the table of stripe starts at offsets `(a, s)` is the table's entry at `(a, s)`. -/
theorem word0 (c : Dev nD) (xt0 : TbBuf0 (F := Ideal) c tbM0_0) (off : Fin 2 → ℕ) (inb : ∀ a, off a + S1x1.size a ≤ S64x2.size a)
    (h : 0 < S1x1.numel) (a : Fin 64) (s : Fin 2) (e : off = ![a.val, s.val]) :
    View.readAt (Elt Ideal) tbM0_0.view (Rect.unit (s := S64x2) off S1x1.size inb).toLoadRect xt0 (Shape.Idx.first h) = xt0 (ix2 a s) := by
  subst e
  rw [View.readAt_eq_ld]
  refine congrArg xt0 (funext fun d => Fin.ext ?_)
  match d with
  | ⟨0, _⟩ => show a.val + 1 * 0 = a.val; omega
  | ⟨1, _⟩ => show s.val + 1 * 0 = s.val; omega

/-- The same for the table of stripe widths. -/
theorem word1 (c : Dev nD) (xt1 : TbBuf0 (F := Ideal) c tbM0_1) (off : Fin 2 → ℕ) (inb : ∀ a, off a + S1x1.size a ≤ S64x2.size a)
    (h : 0 < S1x1.numel) (a : Fin 64) (s : Fin 2) (e : off = ![a.val, s.val]) :
    View.readAt (Elt Ideal) tbM0_1.view (Rect.unit (s := S64x2) off S1x1.size inb).toLoadRect xt1 (Shape.Idx.first h) = xt1 (ix2 a s) := by
  subst e
  rw [View.readAt_eq_ld]
  refine congrArg xt1 (funext fun d => Fin.ext ?_)
  match d with
  | ⟨0, _⟩ => show a.val + 1 * 0 = a.val; omega
  | ⟨1, _⟩ => show s.val + 1 * 0 = s.val; omega

/-- The grid is one axis of 32 steps: a point's coordinate is its number. -/
theorem coords0 : ∀ t : Fin grid0.N, (grid0.coords t (0 : Fin grid0.rank)).val = t.val := by decide +kernel

/-- The table words at grid point `t`: the step's samples are `2 t` and `2 t + 1`, and each word is the table's entry
    at (sample, stripe). -/
theorem words_at (c : Dev nD) (t : Fin grid0.N) (xt0 : TbBuf0 (F := Ideal) c tbM0_0) (xt1 : TbBuf0 (F := Ideal) c tbM0_1)
    (h0 : 2 * t.val < 64) (h1 : 2 * t.val + 1 < 64) :
    bgn00 c (grid0.coords t) xt0 = xt0 (ix2 (⟨2 * t.val, h0⟩ : Fin 64) (0 : Fin 2))
    ∧ bgn01 c (grid0.coords t) xt0 = xt0 (ix2 (⟨2 * t.val, h0⟩ : Fin 64) (1 : Fin 2))
    ∧ dst00 c (grid0.coords t) xt1 = xt1 (ix2 (⟨2 * t.val, h0⟩ : Fin 64) (0 : Fin 2))
    ∧ dst01 c (grid0.coords t) xt1 = xt1 (ix2 (⟨2 * t.val, h0⟩ : Fin 64) (1 : Fin 2))
    ∧ bgn10 c (grid0.coords t) xt0 = xt0 (ix2 (⟨2 * t.val + 1, h1⟩ : Fin 64) (0 : Fin 2))
    ∧ bgn11 c (grid0.coords t) xt0 = xt0 (ix2 (⟨2 * t.val + 1, h1⟩ : Fin 64) (1 : Fin 2))
    ∧ dst10 c (grid0.coords t) xt1 = xt1 (ix2 (⟨2 * t.val + 1, h1⟩ : Fin 64) (0 : Fin 2))
    ∧ dst11 c (grid0.coords t) xt1 = xt1 (ix2 (⟨2 * t.val + 1, h1⟩ : Fin 64) (1 : Fin 2)) := by
  have o10 : k0_off1 (grid0.coords t) 0#32 = ![(⟨2 * t.val, h0⟩ : Fin 64).val, (0 : Fin 2).val] :=
    (k0_off1_eq (grid0.coords t) ⟨0, by decide⟩).trans (by rw [coords0 t]; rfl)
  have o20 : k0_off2 (grid0.coords t) 0#32 = ![(⟨2 * t.val, h0⟩ : Fin 64).val, (1 : Fin 2).val] :=
    (k0_off2_eq (grid0.coords t) ⟨0, by decide⟩).trans (by rw [coords0 t]; rfl)
  have o11 : k0_off1 (grid0.coords t) 1#32 = ![(⟨2 * t.val + 1, h1⟩ : Fin 64).val, (0 : Fin 2).val] :=
    (k0_off1_eq (grid0.coords t) ⟨1, by decide⟩).trans (by rw [coords0 t]; rfl)
  have o21 : k0_off2 (grid0.coords t) 1#32 = ![(⟨2 * t.val + 1, h1⟩ : Fin 64).val, (1 : Fin 2).val] :=
    (k0_off2_eq (grid0.coords t) ⟨1, by decide⟩).trans (by rw [coords0 t]; rfl)
  exact ⟨word0 c xt0 _ _ _ _ _ o10, word0 c xt0 _ _ _ _ _ o20, word1 c xt1 _ _ _ _ _ o10, word1 c xt1 _ _ _ _ _ o20,
    word0 c xt0 _ _ _ _ _ o11, word0 c xt0 _ _ _ _ _ o21, word1 c xt1 _ _ _ _ _ o11, word1 c xt1 _ _ _ _ _ o21⟩

end Cert.KernelIdeal.Stripes

end
-- ==== Proof.Reshape.lean ====
/-
  Dropping and restoring a unit axis, read at an index.

  A reshape keeps every element's row-major position. Between the shapes [64, 1, 4096, 256] and [64, 4096, 256]
  the position of (b, 0, t, f) is ((b·1 + 0)·4096 + t)·256 + f and that of (b, t, f) is (b·4096 + t)·256 + f:
  the same number, the coordinate on the unit axis being 0. So the squeezed array at (b, t, f) is the operand at
  (b, 0, t, f), and the array with the axis put back at (b, z, t, f) is the operand at (b, t, f).
-/
import Idealize.ShloMosaic.Lib.Pipeline.Value
import Idealize.ShloMosaic.Lib.ValueIdx

namespace Cert.Stripes

open Idealize.ShloMosaic Idealize.ShloMosaic.ValueIdx

/-- The array with the unit channel axis dropped, at (b, t, f), is the operand at (b, 0, t, f). -/
theorem squeeze_apply {α : Type} (X : (⟨4, ![64, 1, 4096, 256]⟩ : Shape).Idx → α)
    (h : (⟨4, ![64, 1, 4096, 256]⟩ : Shape).ShapeCasts ⟨3, ![64, 4096, 256]⟩) (b : Fin 64) (t : Fin 4096) (f : Fin 256) :
    shapeCast ⟨3, ![64, 4096, 256]⟩ X h (ix3 b t f) = X (ix4 b 0 t f) := by
  refine shapeCast_apply X h (ix3 b t f) (ix4 b 0 t f) ?_
  rw [Shape.rowMajor_val_four, Shape.rowMajor_val_three]
  show ((b.val * 1 + 0) * 4096 + t.val) * 256 + f.val = (b.val * 4096 + t.val) * 256 + f.val
  omega

/-- The array with the unit channel axis put back, at (b, z, t, f), is the operand at (b, t, f). -/
theorem unsqueeze_apply {α : Type} (Y : (⟨3, ![64, 4096, 256]⟩ : Shape).Idx → α)
    (h : (⟨3, ![64, 4096, 256]⟩ : Shape).ShapeCasts ⟨4, ![64, 1, 4096, 256]⟩) (b : Fin 64) (z : Fin 1) (t : Fin 4096) (f : Fin 256) :
    shapeCast ⟨4, ![64, 1, 4096, 256]⟩ Y h (ix4 b z t f) = Y (ix3 b t f) := by
  refine shapeCast_apply Y h (ix4 b z t f) (ix3 b t f) ?_
  rw [Shape.rowMajor_val_four, Shape.rowMajor_val_three]
  show (b.val * 4096 + t.val) * 256 + f.val = ((b.val * 1 + z.val) * 4096 + t.val) * 256 + f.val
  have hz : z.val = 0 := by have := z.isLt; omega
  rw [hz]
  omega

end Cert.Stripes
-- ==== Proof.KernelValue.lean ====
/-
  The kernel's result array.

  Grid step `t` stages samples `2 t` and `2 t + 1` of the squeezed input (block `(t, 0, 0)` of a `[64, 4096, 256]`
  array in blocks of `[2, 4096, 256]`) and writes back the same block of the output; the 32 blocks tile the array.
  What a step writes back is its block of ONE whole-array function: each entry of the squeezed input times the keep
  factor of the entry's sample and time step, read from the two tables. So the output array ends holding that
  function; the reshape after the region puts the unit channel axis back, and the reshape before it took it away,
  which gives the masked array of the four-axis input.
-/
import proofs.«410493_j44710609551576_3_alg».proof.Proof.Block
import proofs.«410493_j44710609551576_3_alg».proof.Proof.Reshape
import Idealize.ShloMosaic.Lib.StableHlo.Run

set_option maxRecDepth 16384

noncomputable section

namespace Cert.KernelIdeal.Stripes

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Stripes

/-- A step's block function is the whole-array keep factor at the entry's sample `2 t + y₀` and time step `y₁`. -/
theorem blockFn_eq_keepAt (x0 : S2x4096x256.Idx → EReal) (bgn dist : ST.Idx → BitVec 32) (t : ℕ) (h0 : 2 * t < 64) (h1 : 2 * t + 1 < 64)
    (y : S2x4096x256.Idx) (b : Fin 64) (tt : Fin 4096) (hb : b.val = 2 * t + (y 0).val) (ht : tt.val = (y 1).val) :
    blockFn x0 (bgn (ix2 (⟨2 * t, h0⟩ : Fin 64) (0 : Fin 2))) (dist (ix2 (⟨2 * t, h0⟩ : Fin 64) (0 : Fin 2)))
        (bgn (ix2 (⟨2 * t, h0⟩ : Fin 64) (1 : Fin 2))) (dist (ix2 (⟨2 * t, h0⟩ : Fin 64) (1 : Fin 2)))
        (bgn (ix2 (⟨2 * t + 1, h1⟩ : Fin 64) (0 : Fin 2))) (dist (ix2 (⟨2 * t + 1, h1⟩ : Fin 64) (0 : Fin 2)))
        (bgn (ix2 (⟨2 * t + 1, h1⟩ : Fin 64) (1 : Fin 2))) (dist (ix2 (⟨2 * t + 1, h1⟩ : Fin 64) (1 : Fin 2))) y
      = x0 y * keepAt bgn dist b tt := by
  rw [blockFn_apply]
  unfold keepAt
  rw [ht]
  by_cases hy : (y 0).val = 0
  · have eb : b = ⟨2 * t, h0⟩ := Fin.ext (by rw [hb, hy]; rfl)
    rw [if_pos hy, eb]
  · have hy1 : (y 0).val = 1 := by have h2 : (y 0).val < 2 := (y 0).isLt; omega
    have eb : b = ⟨2 * t + 1, h1⟩ := Fin.ext (by rw [hb, hy1])
    rw [if_neg hy, eb]

variable (m : (ℓ : Loc nD τ sig) → Buf (Elt Ideal) ℓ) (ρ : Dev nD → PrngReg)

/-- The tables' side condition asks nothing: no index map reads a table. -/
theorem ok : Ok (F := Ideal) m := trivial

/-- The squeezed input as the region finds it, and the two tables, at their literal types. -/
abbrev xin (c : Dev nD) : S64x4096x256.Idx → EReal := V m c main_v0
abbrev bgnT : ST.Idx → BitVec 32 := tbl m 0
abbrev dstT : ST.Idx → BitVec 32 := tbl m 1

/-- The output array after the region: the squeezed input times the keep factor of (sample, time step). -/
def outArr (c : Dev nD) : S64x4096x256.Idx → EReal :=
  fun j => xin m c j * keepAt (bgnT m) (dstT m) (j 0) (j 1)

/-- Both windows' block index at step `t` is `(t, 0, 0)`. -/
theorem index_facts : ∀ t : Fin grid0.N, cc0_transform_0 (grid0.coords t) = ![t.val, 0, 0] ∧ cc0_transform_1 (grid0.coords t) = ![t.val, 0, 0] := by
  decide +kernel

/-- Step `t`'s block function at an entry `y` of the block is the output array's function at the entry's place in the array. -/
theorem block_at (hO : Ok (F := Ideal) m) (c : Dev nD) (t : Fin (cfgM m hO).N) (h0 : 2 * t.val < 64) (h1 : 2 * t.val + 1 < 64) (y : S2x4096x256.Idx) :
    blockFn (iblk m hO c 0 t) (bgnT m (ix2 (⟨2 * t.val, h0⟩ : Fin 64) (0 : Fin 2))) (dstT m (ix2 (⟨2 * t.val, h0⟩ : Fin 64) (0 : Fin 2)))
        (bgnT m (ix2 (⟨2 * t.val, h0⟩ : Fin 64) (1 : Fin 2))) (dstT m (ix2 (⟨2 * t.val, h0⟩ : Fin 64) (1 : Fin 2)))
        (bgnT m (ix2 (⟨2 * t.val + 1, h1⟩ : Fin 64) (0 : Fin 2))) (dstT m (ix2 (⟨2 * t.val + 1, h1⟩ : Fin 64) (0 : Fin 2)))
        (bgnT m (ix2 (⟨2 * t.val + 1, h1⟩ : Fin 64) (1 : Fin 2))) (dstT m (ix2 (⟨2 * t.val + 1, h1⟩ : Fin 64) (1 : Fin 2))) y
      = outArr m c ((((cfgM m hO).win 1).blk t).view.emb y) := by
  obtain ⟨i0, i1⟩ := index_facts t
  -- an entry of block `t` sits in the array at block index × block size + its own coordinate, axis by axis
  have hj0 : ((((cfgM m hO).win 1).blk t).view.emb y (0 : Fin 3)).val = 2 * t.val + (y (0 : Fin 3)).val := by
    show cc0_transform_1 (grid0.coords t) (0 : Fin 3) * 2 + 1 * (y (0 : Fin 3)).val = _
    rw [i1]
    show t.val * 2 + 1 * (y (0 : Fin 3)).val = _
    omega
  have hj1 : ((((cfgM m hO).win 1).blk t).view.emb y (1 : Fin 3)).val = (y (1 : Fin 3)).val := by
    show cc0_transform_1 (grid0.coords t) (1 : Fin 3) * 4096 + 1 * (y (1 : Fin 3)).val = _
    rw [i1]
    show 0 * 4096 + 1 * (y (1 : Fin 3)).val = _
    omega
  have he : (((cfgM m hO).win 0).blk t).view.emb y = (((cfgM m hO).win 1).blk t).view.emb y := by
    funext a; apply Fin.ext
    match a with
    | ⟨0, _⟩ =>
      show cc0_transform_0 (grid0.coords t) (0 : Fin 3) * 2 + 1 * (y (0 : Fin 3)).val = cc0_transform_1 (grid0.coords t) (0 : Fin 3) * 2 + 1 * (y (0 : Fin 3)).val
      rw [i0, i1]
    | ⟨1, _⟩ =>
      show cc0_transform_0 (grid0.coords t) (1 : Fin 3) * 4096 + 1 * (y (1 : Fin 3)).val = cc0_transform_1 (grid0.coords t) (1 : Fin 3) * 4096 + 1 * (y (1 : Fin 3)).val
      rw [i0, i1]
    | ⟨2, _⟩ =>
      show cc0_transform_0 (grid0.coords t) (2 : Fin 3) * 256 + 1 * (y (2 : Fin 3)).val = cc0_transform_1 (grid0.coords t) (2 : Fin 3) * 256 + 1 * (y (2 : Fin 3)).val
      rw [i0, i1]
  refine (blockFn_eq_keepAt (iblk m hO c 0 t) (bgnT m) (dstT m) t.val h0 h1 y _ _ hj0 hj1).trans ?_
  show xin m c ((((cfgM m hO).win 0).blk t).view.emb y) * _ = xin m c ((((cfgM m hO).win 1).blk t).view.emb y) * _
  rw [he]

/-- WHAT STEP `t` WRITES BACK is block `t` of the output array's function. -/
theorem flushed_eq (hO : Ok (F := Ideal) m) (c : Dev nD) (t : Fin (cfgM m hO).N) :
    (dats m hO 0 c).flushed 1 t = (((cfgM m hO).win 1).blk t).view.read (Elt Ideal) (outArr m c) := by
  show ((cfgM m hO).win 1).cut (grid0.coords t) ((dats m hO 0 c).after 1 t) = _
  rw [after0_1]
  unfold outsAt0
  have hN : t.val < 32 := lt_of_lt_of_eq t.isLt N_0
  have hb := out_block c (grid0.coords t) (ms0_0 m hO t) (hs0_0 m hO t) (ms0_1 m hO t) (hs0_1 m hO t) (iblk m hO c 0 t) (tbl m 0) (tbl m 1)
  obtain ⟨w1, w2, w3, w4, w5, w6, w7, w8⟩ := words_at c t (tbl m 0) (tbl m 1) (by omega) (by omega)
  rw [w1, w2, w3, w4, w5, w6, w7, w8] at hb
  funext y
  exact (congrFun hb y).trans (block_at m hO c t (by omega) (by omega) y)

/-- The 32 blocks tile the array: sample `b` lies in the block of step `b / 2`, at the block's entry
    `(b mod 2, time step, column)`, and every step writes back. -/
theorem cover (hO : Ok (F := Ideal) m) (i : S64x4096x256.Idx) :
    ∃ t : Fin (cfgM m hO).N, ((cfgM m hO).win 1).flush t = true ∧ i ∈ (((cfgM m hO).win 1).blk t).view.set := by
  have hi0 : (i (0 : Fin 3)).val < 64 := (i (0 : Fin 3)).isLt
  have ht : (i (0 : Fin 3)).val / 2 < grid0.N := by rw [N_0]; omega
  obtain ⟨_, i1⟩ := index_facts ⟨(i (0 : Fin 3)).val / 2, ht⟩
  refine ⟨⟨(i (0 : Fin 3)).val / 2, ht⟩, flush0_1 (adm m hO) _,
    Finset.mem_map.mpr ⟨(ix3 (⟨(i (0 : Fin 3)).val % 2, Nat.mod_lt _ (by decide)⟩ : Fin 2) (⟨(i (1 : Fin 3)).val, (i (1 : Fin 3)).isLt⟩ : Fin 4096)
      (⟨(i (2 : Fin 3)).val, (i (2 : Fin 3)).isLt⟩ : Fin 256) : S2x4096x256.Idx), Finset.mem_univ _, ?_⟩⟩
  funext a; apply Fin.ext
  match a with
  | ⟨0, _⟩ =>
    show cc0_transform_1 (grid0.coords ⟨(i (0 : Fin 3)).val / 2, ht⟩) (0 : Fin 3) * 2 + 1 * ((i (0 : Fin 3)).val % 2) = (i (0 : Fin 3)).val
    rw [i1]
    show (i (0 : Fin 3)).val / 2 * 2 + 1 * ((i (0 : Fin 3)).val % 2) = (i (0 : Fin 3)).val
    omega
  | ⟨1, _⟩ =>
    show cc0_transform_1 (grid0.coords ⟨(i (0 : Fin 3)).val / 2, ht⟩) (1 : Fin 3) * 4096 + 1 * (i (1 : Fin 3)).val = (i (1 : Fin 3)).val
    rw [i1]
    show 0 * 4096 + 1 * (i (1 : Fin 3)).val = (i (1 : Fin 3)).val
    omega
  | ⟨2, _⟩ =>
    show cc0_transform_1 (grid0.coords ⟨(i (0 : Fin 3)).val / 2, ht⟩) (2 : Fin 3) * 256 + 1 * (i (2 : Fin 3)).val = (i (2 : Fin 3)).val
    rw [i1]
    show 0 * 256 + 1 * (i (2 : Fin 3)).val = (i (2 : Fin 3)).val
    omega

/-- THE OUTPUT ARRAY after the region. -/
theorem final (hO : Ok (F := Ideal) m) (c : Dev nD) : (dats m hO 0 c).arrAt 1 (cfgM m hO).N = outArr m c :=
  (dats m hO 0 c).arrAt_eq_of_cover 1 (outArr m c) (fun t _ => flushed_eq m hO c t) (cover m hO)

/-- The region finds the input with its unit channel axis squeezed away. -/
theorem xin_eq (c : Dev nD) :
    xin m c = shapeCast S64x4096x256 (m ((c : Thread nD τ).loc main_arg0)) shapeCasts_S64x1x4096x256_S64x4096x256 := by
  show StableHlo.after hostOps0 (fun b => m (c, b)) (Proc.devRef .tc main_v0) = _
  after_results
  rfl

/-- After the region the unit channel axis is put back. -/
theorem tail_eq (hO : Ok (F := Ideal) m) (c : Dev nD) :
    Pipeline.afterTail pcfgs (fun _ => adm m hO) (dats m hO) 0 (V0 m) [hostOps1] c main_v2
      = shapeCast S64x1x4096x256 (outArr m c) shapeCasts_S64x4096x256_S64x1x4096x256 := by
  have hw : Pipeline.withArrays (Pipeline.pin pcfgs (fun _ => adm m hO) 0).spec c (V0 m c)
      (fun w => (dats m hO 0 c).arrAt w (Pipeline.pin pcfgs (fun _ => adm m hO) 0).N) (Proc.devRef .tc main_v1) = outArr m c :=
    (Pipeline.withArrays_arr spec0 winFacts0.arr_inj c _ _ 1).trans (final m hO c)
  unfold Pipeline.afterTail
  show StableHlo.after hostOps1 _ (Proc.devRef .tc main_v2) = _
  after_results
  exact congrArg (fun X : S64x4096x256.Idx → EReal => shapeCast S64x1x4096x256 X shapeCasts_S64x4096x256_S64x1x4096x256) hw

/-- The result, index by index: the output array with the unit axis back is the masked four-axis input. -/
theorem result_eq (c : Dev nD) :
    shapeCast S64x1x4096x256 (outArr m c) shapeCasts_S64x4096x256_S64x1x4096x256
      = masked (m ((c.tc : Thread nD τ).loc main_arg0)) (m ((c.tc : Thread nD τ).loc main_arg1)) (m ((c.tc : Thread nD τ).loc main_arg2)) := by
  have hb : bgnT m = m ((c.tc : Thread nD τ).loc main_arg1) := (V_pre m c 0).symm.trans (V_main_arg1 m c)
  have hd : dstT m = m ((c.tc : Thread nD τ).loc main_arg2) := (V_pre m c 1).symm.trans (V_main_arg2 m c)
  funext i
  obtain ⟨b, z, t, f, rfl⟩ : ∃ (b : Fin 64) (z : Fin 1) (t : Fin 4096) (f : Fin 256), i = ix4 b z t f := ⟨i 0, i 1, i 2, i 3, eq_ix4 i⟩
  have hz : z = 0 := Subsingleton.elim _ _
  subst hz
  rw [unsqueeze_apply]
  show xin m c (ix3 b t f) * keepAt (bgnT m) (dstT m) b t = _
  rw [xin_eq, squeeze_apply, hb, hd]
  rfl

/-- The kernel's run, read: every weakly fair execution ends with the result at the masked input and the arguments
    as launched. -/
theorem run : θ_run defs (onTc (τ := τ) (main (F := Ideal))) ⟨m, fun _ => 0, ρ⟩ (fun r => ∀ c : Dev nD,
      r.2.mem ((c.tc : Thread nD τ).loc main_v2)
        = masked (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v2 (by decide : main_v2 ∈ Pipeline.restRefs sig spec0)).trans ((tail_eq m (ok m) c).trans (result_eq m c)),
      ((h c).2 main_arg0 (by decide : main_arg0 ∈ Pipeline.restRefs sig spec0)).trans (W_main_arg0 m (ok m) (dats m (ok m)) c),
      ((h c).2 main_arg1 (by decide : main_arg1 ∈ Pipeline.restRefs sig spec0)).trans (W_main_arg1 m (ok m) (dats m (ok m)) c),
      ((h c).2 main_arg2 (by decide : main_arg2 ∈ Pipeline.restRefs sig spec0)).trans (W_main_arg2 m (ok m) (dats m (ok m)) c)⟩)
    (run_main m ρ (ok m))

end Cert.KernelIdeal.Stripes

end
-- ==== Proof.RefIsMasked.lean ====
/-
  The reference program computes the masked array.

  The reference builds, for every (sample, stripe, time step), the bit "the time step lies in the stripe"
  (start ≤ t, signed, and t < start + width, signed, the sum wrapping), reduces it with "or" over the stripe
  axis (extent 2) from the bit 0, complements the result, reads the bit as the number 0 or 1 and multiplies
  the input by it, sample and time step broadcast over the remaining axes. Read at one entry
  (b, 0, t, f), outermost operation first, this is: the input's entry times the number of
  "not (stripe 0's bit or stripe 1's bit or 0)". The only operation that is not a read of one operand element
  is the reduction; over a single axis it is a fold over that axis's two coordinates, each inserted into the
  result index, and a fold of "or" over two coordinates is the "or" of the two terms. What remains is a fact
  about one bit: the complement of a bit read unsigned is the bit xor 1, widened to a word and read signed.
-/
import proofs.«410493_j44710609551576_3_alg».proof.Proof.Gen.ReferenceIdeal.Read
import proofs.«410493_j44710609551576_3_alg».proof.Proof.Spec
import Idealize.ShloMosaic.Lib.KernelVsHost
import Idealize.ShloMosaic.PureOps.Reduce

noncomputable section

namespace Cert.Stripes.Ref

open Cert.ReferenceIdeal Cert.ReferenceIdeal.Gen Cert.ReferenceIdeal.Read Idealize.ShloMosaic Idealize.ShloMosaic.ValueIdx

/-- Dropping axis 1 of a [64, 2, 4096] array leaves a [64, 4096] array: the fact in the form from which the
    index with a coordinate inserted on the dropped axis is defined. -/
theorem hred : S64x2x4096.Reduces [(1 : Fin S64x2x4096.rank)] S64x4096 := by decide

/-- A fold of "or" over the two coordinates of an axis of extent 2 is the "or" of the two terms and the start. -/
theorem fold_or_fin2 (b : BitVec 1) (g : Fin 2 → BitVec 1) :
    (Finset.univ : Finset (Fin 2)).fold IntOp.ori b g = IntOp.ori (IntOp.ori (g 0) (g 1)) b := by
  have h : (Finset.univ : Finset (Fin 2)) = insert 0 {1} := by decide
  rw [h, Finset.fold_insert (by decide), Finset.fold_singleton]
  exact (Std.Associative.assoc (op := IntOp.ori (w := 1)) _ _ _).symm

/-- Entry `i` of the result, with stripe `k` inserted on the reduced axis, reads the table of stripe starts at
    (sample, stripe): the two broadcasts keep the sample and stripe coordinates. -/
theorem tbl_idx (i : S64x1x4096x256.Idx) (k : Fin 2) :
    idx_main_v2 (idx_main_v4 (hred.lift (idx_main_v15 (idx_main_v17 i)) k)) = ix2 (i 0) k := by
  funext a
  match a with
  | ⟨0, _⟩ => rfl
  | ⟨1, _⟩ => rfl

/-- The same for the table of stripe ends (start + width), which is broadcast the same way. -/
theorem tbl_idx' (i : S64x1x4096x256.Idx) (k : Fin 2) :
    idx_main_v8 (idx_main_v10 (hred.lift (idx_main_v15 (idx_main_v17 i)) k)) = ix2 (i 0) k := by
  funext a
  match a with
  | ⟨0, _⟩ => rfl
  | ⟨1, _⟩ => rfl

/-- Its time coordinate is the entry's time step, whichever stripe was inserted. -/
theorem time_idx (i : S64x1x4096x256.Idx) (k : Fin 2) :
    (hred.lift (idx_main_v15 (idx_main_v17 i)) k 2).val = (i 2).val := rfl

/-- "Not (a or b or 0)" read unsigned is "(a or b) xor 1" widened to a word and read signed: both are the number
    0 or 1 of the same bit. -/
theorem keep_word (a b : BitVec 1) :
    FloatOps.uitofp (F := Ideal) .f32 (~~~IntOp.ori (IntOp.ori a b) 0#1)
      = FloatOps.sitofp (F := Ideal) .f32 ((IntOp.xori (IntOp.ori a b) 1#1).setWidth 32) := by
  have hb : ∀ a b : BitVec 1, ~~~IntOp.ori (IntOp.ori a b) 0#1 = IntOp.xori (IntOp.ori a b) 1#1 := by decide
  rw [hb]
  show ((((IntOp.xori (IntOp.ori a b) 1#1).toNat : ℝ)) : EReal)
      = (((((IntOp.xori (IntOp.ori a b) 1#1).setWidth 32).toInt : ℝ)) : EReal)
  rw [toInt_setWidth_bit]
  norm_cast

/-- The reference's result is the masked array. -/
theorem ref_is_masked
    (x0 : (⟨Cert.ReferenceIdeal.S64x1x4096x256, .f32⟩ : BufTy).Contents (Elt Ideal))
    (x1 x2 : (⟨Cert.ReferenceIdeal.S64x2, .i32⟩ : BufTy).Contents (Elt Ideal)) :
    Cert.ReferenceIdeal.Read.val_main_v18 (F := Ideal) x0 x1 x2 = Cert.Stripes.masked x0 x1 x2 := by
  funext i
  -- from the product down to the complement of the reduction, one element of each operand
  rw [val_main_v18_apply, val_main_v17_apply, val_main_v16_apply, val_main_v15_apply, val_main_v14_apply]
  -- the reduction over the stripe axis: a fold of "or" over its two coordinates, from the bit 0
  unfold val_main_v13
  rw [Host.reduce_eq_fold_single IntOp.ori _ _ reducesTo_S64x2x4096_S64x4096_d1 hred h_S_]
  rw [val_main_c_apply]
  have hf : Finset.fold IntOp.ori (0#1) (val_main_v12 (F := Ideal) x1 x2 ∘ hred.lift (idx_main_v15 (idx_main_v17 i))) Finset.univ
      = IntOp.ori (IntOp.ori (val_main_v12 (F := Ideal) x1 x2 (hred.lift (idx_main_v15 (idx_main_v17 i)) (0 : Fin 2)))
          (val_main_v12 (F := Ideal) x1 x2 (hred.lift (idx_main_v15 (idx_main_v17 i)) (1 : Fin 2)))) 0#1 :=
    fold_or_fin2 _ _
  rw [hf]
  -- each stripe's bit, down to the time step and the two tables
  simp only [val_main_v12_apply, val_main_v5_apply, val_main_v11_apply, val_main_v3_apply, val_main_v1_apply,
    val_main_v9_apply, val_main_v6_apply, val_main_v0_apply, val_main_v4_apply, val_main_v2_apply,
    val_main_v10_apply, val_main_v8_apply, val_main_v7_apply]
  rw [tbl_idx i 0, tbl_idx i 1, tbl_idx' i 0, tbl_idx' i 1, time_idx i 0, time_idx i 1, keep_word]
  -- both sides are now the entry times the keep factor of (sample, time step), spelt the same
  rfl

end Cert.Stripes.Ref

end
-- ==== Proof.lean ====
/-
  Time-stripe masking: the kernel against its jnp reference, over the extended reals.

  Both programs multiply every entry `x (b, 0, t, f)` by a keep factor that is 0 when time step `t` lies in one of
  sample `b`'s two stripes `[bgn b s, bgn b s + distance b s)` (signed comparisons, the sum wrapping at 32 bits) and
  1 otherwise (`Cert.Stripes.masked`, Proof/Spec.lean). The reference builds the mask for the whole array with
  broadcasts, an "or" over the stripe axis and a conversion of the complemented bit (Proof/RefIsMasked.lean). The
  kernel squeezes the unit channel axis, walks the samples two per grid step and each sample in 8 chunks of 512 time
  steps, storing per chunk the loaded rows times the chunk's mask column, and puts the axis back: its 16 stores per
  step tile the step's block (Proof/Pieces.lean, Proof/Payload.lean, Proof/Block.lean) and the 32 blocks tile the
  array (Proof/KernelValue.lean). The two masks are the same bit, so the results agree entry by entry; no law of
  the extended reals beyond the same product on both sides is used, and the precondition is not needed.
  The kernel's index maps read neither table, so the tables' side condition of the frames is empty.
-/
import proofs.«410493_j44710609551576_3_alg».proof.Defs
import proofs.«410493_j44710609551576_3_alg».proof.Proof.Gen.Kernel
import proofs.«410493_j44710609551576_3_alg».proof.Proof.Gen.Kernel.Skeleton
import proofs.«410493_j44710609551576_3_alg».proof.Proof.Gen.Kernel.Loops
import proofs.«410493_j44710609551576_3_alg».proof.Proof.Gen.Kernel.Launch
import proofs.«410493_j44710609551576_3_alg».proof.Proof.Gen.Kernel.Points
import proofs.«410493_j44710609551576_3_alg».proof.Proof.Gen.Kernel.Frame
import proofs.«410493_j44710609551576_3_alg».proof.Proof.Gen.KernelIdeal
import proofs.«410493_j44710609551576_3_alg».proof.Proof.Gen.KernelIdeal.Skeleton
import proofs.«410493_j44710609551576_3_alg».proof.Proof.Gen.KernelIdeal.Loops
import proofs.«410493_j44710609551576_3_alg».proof.Proof.Gen.KernelIdeal.Launch
import proofs.«410493_j44710609551576_3_alg».proof.Proof.Gen.KernelIdeal.Points
import proofs.«410493_j44710609551576_3_alg».proof.Proof.Gen.KernelIdeal.Frame
import proofs.«410493_j44710609551576_3_alg».proof.Proof.Gen.ReferenceIdeal
import proofs.«410493_j44710609551576_3_alg».proof.Proof.Gen.Pre_finite_inputs
import proofs.«410493_j44710609551576_3_alg».proof.Proof.Gen.ReferenceIdeal.Run
import proofs.«410493_j44710609551576_3_alg».proof.Proof.Gen.ReferenceIdeal.Read
import proofs.«410493_j44710609551576_3_alg».proof.Proof.KernelValue
import proofs.«410493_j44710609551576_3_alg».proof.Proof.RefIsMasked
import Idealize.ShloMosaic.Adequacy
import Idealize.ShloMosaic.Init

noncomputable section

namespace Cert.Proof

open Idealize.ShloMosaic Idealize.SL.Sem

/-- The word-level kernel runs and keeps its arguments: the generated frame, whose side condition on the tables is empty. -/
theorem frame_k : Cert.frame_Kernel := fun m ρ _ => Cert.Kernel.Gen.frame m ρ trivial

/-- The same for the idealized kernel. -/
theorem frame_ki : Cert.frame_KernelIdeal := fun m ρ _ => Cert.KernelIdeal.Gen.frame m ρ trivial

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the masked input: the kernel by its run read block by block, the reference by its run
    read operation by operation, from arguments that agree. -/
theorem algebraic : Cert.algebraic_KernelIdeal_ReferenceIdeal := by
  intro m ρ m' ρ' _ hagree
  refine ⟨fun c => Cert.Stripes.masked (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Stripes.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v18_eq, Cert.Stripes.Ref.ref_is_masked, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
